-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8 : Shape := ⟨2, ![256, 8]⟩
abbrev S16384x16384 : Shape := ⟨2, ![16384, 16384]⟩
abbrev S16384 : Shape := ⟨1, ![16384]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384 : S_.BroadcastsInDim S16384 (![] : Fin 0 → Fin S16384.rank)
  reducesTo_S16384_S_d0 : S16384.ReducesTo [0] S_
  bcast_S_S256x8 : S_.BroadcastsInDim S256x8 (![] : Fin 0 → Fin S256x8.rank)
  reducesTo_S256x8_S_d0_1 : S256x8.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S256x8 32) (main_arg1 : FVec F S16384x16384 .f32) (main_arg2 : FVec F S16384 .f32) : IVec S_ 1 :=
  let main_v0 : FVec F S16384x16384 .f32 := Host.absf main_arg1
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_c_2 : IVec S_ 32 := constantI S_ 32 0#32
  let main_v9 : IVec S256x8 32 := broadcastInDim S256x8 ![] bcast_S_S256x8 main_c_2
  let main_v10 : IVec S256x8 1 := cmpi .sge main_arg0 main_v9
  let main_c_3 : IVec S_ 1 := constantI S_ 1 1#1
  let main_v11 : IVec S_ 1 := (fun x v => Host.reduce IntOp.andi x v reducesTo_S256x8_S_d0_1 h_S_) main_v10 main_c_3
  let main_v12 : IVec S_ 1 := andi main_v8 main_v11
  let main_c_4 : IVec S_ 32 := constantI S_ 32 2048#32
  let main_v13 : IVec S256x8 32 := broadcastInDim S256x8 ![] bcast_S_S256x8 main_c_4
  let main_v14 : IVec S256x8 1 := cmpi .slt main_arg0 main_v13
  let main_c_5 : IVec S_ 1 := constantI S_ 1 1#1
  let main_v15 : IVec S_ 1 := (fun x v => Host.reduce IntOp.andi x v reducesTo_S256x8_S_d0_1 h_S_) main_v14 main_c_5
  fn_part1 (F := F) main_v12 main_v15
-- ==== Kernel.lean ====
abbrev S256x8 : Shape := ⟨2, ![256, 8]⟩
abbrev S16384x16384 : Shape := ⟨2, ![16384, 16384]⟩
abbrev S16384 : Shape := ⟨1, ![16384]⟩
abbrev S256x8x1 : Shape := ⟨3, ![256, 8, 1]⟩
abbrev S1x1x2048 : Shape := ⟨3, ![1, 1, 2048]⟩
abbrev S256x8x2048 : Shape := ⟨3, ![256, 8, 2048]⟩
abbrev S256x16384 : Shape := ⟨2, ![256, 16384]⟩
abbrev S1x16384 : Shape := ⟨2, ![1, 16384]⟩
abbrev S256x2048 : Shape := ⟨2, ![256, 2048]⟩
abbrev S2048x2048 : Shape := ⟨2, ![2048, 2048]⟩
abbrev S1x2048 : Shape := ⟨2, ![1, 2048]⟩

abbrev nBuf : Space → Nat
  | .hbm => 13
  | .vmem => 9
  | .smem => 0
  | _ => 0

abbrev bufTy : (tb : Table) → Fin (tcTables nBuf tb) → BufTy
  | .hbm, ⟨0, _⟩ => ⟨S256x8, .i32⟩
  | .hbm, ⟨1, _⟩ => ⟨S16384x16384, .f32⟩
  | .hbm, ⟨2, _⟩ => ⟨S16384, .f32⟩
  | .hbm, ⟨3, _⟩ => ⟨S256x8x1, .i32⟩
  | .hbm, ⟨4, _⟩ => ⟨S1x1x2048, .i32⟩
  | .hbm, ⟨5, _⟩ => ⟨S256x8x2048, .i32⟩
  | .hbm, ⟨6, _⟩ => ⟨S256x8x2048, .i32⟩
  | .hbm, ⟨7, _⟩ => ⟨S256x8x2048, .i1⟩
  | .hbm, ⟨8, _⟩ => ⟨S256x8x2048, .bf16⟩
  | .hbm, ⟨9, _⟩ => ⟨S256x16384, .bf16⟩
  | .hbm, ⟨10, _⟩ => ⟨S1x16384, .f32⟩
  | .hbm, ⟨11, _⟩ => ⟨S256x16384, .f32⟩
  | .hbm, ⟨12, _⟩ => ⟨S256x8x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .f32⟩
  | .local _ .vmem, ⟨3, _⟩ => ⟨S2048x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | _, _ => ⟨S256x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S256x8_S256x8x1_0_1 : S256x8.BroadcastsInDim S256x8x1 (![0, 1] : Fin 2 → Fin S256x8x1.rank)
  bcast_S256x8x1_S256x8x2048_0_1_2 : S256x8x1.BroadcastsInDim S256x8x2048 (![0, 1, 2] : Fin 3 → Fin S256x8x2048.rank)
  bcast_S1x1x2048_S256x8x2048_0_1_2 : S1x1x2048.BroadcastsInDim S256x8x2048 (![0, 1, 2] : Fin 3 → Fin S256x8x2048.rank)
  shapeCasts_S256x8x2048_S256x16384 : S256x8x2048.ShapeCasts S256x16384
  shapeCasts_S16384_S1x16384 : S16384.ShapeCasts S1x16384
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  shapeCasts_S256x16384_S256x8x2048 : S256x16384.ShapeCasts S256x8x2048
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x16384.size a
  hwx0_0 : ∀ i : grid0.Coords, EltTy.bits .bf16 = 32 ∨ (Rect.block (s := S256x16384) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S16384x16384.size a
  hwx0_1 : ∀ i : grid0.Coords, EltTy.bits .f32 = 32 ∨ (Rect.block (s := S16384x16384) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x16384.size a
  hwx0_3 : ∀ i : grid0.Coords, EltTy.bits .f32 = 32 ∨ (Rect.block (s := S256x16384) S256x2048.size (cc0_transform_3 i) (hinb0_3 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_v1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x8 : Shape := ⟨2, ![256, 8]⟩
abbrev S16384x16384 : Shape := ⟨2, ![16384, 16384]⟩
abbrev S16384 : Shape := ⟨1, ![16384]⟩
abbrev S8 : Shape := ⟨1, ![8]⟩
abbrev S_ : Shape := ⟨0, ![]⟩
abbrev S1x8 : Shape := ⟨2, ![1, 8]⟩
abbrev S256x8x1 : Shape := ⟨3, ![256, 8, 1]⟩
abbrev S256x8x16384 : Shape := ⟨3, ![256, 8, 16384]⟩
abbrev S256x16384 : Shape := ⟨2, ![256, 16384]⟩
abbrev S1x16384 : Shape := ⟨2, ![1, 16384]⟩
abbrev S256x8x2048 : Shape := ⟨3, ![256, 8, 2048]⟩

abbrev nBuf : Space → Nat
  | .hbm => 26
  | .vmem => 0
  | .smem => 0
  | _ => 0

abbrev bufTy : (tb : Table) → Fin (tcTables nBuf tb) → BufTy
  | .hbm, ⟨0, _⟩ => ⟨S256x8, .i32⟩
  | .hbm, ⟨1, _⟩ => ⟨S16384x16384, .f32⟩
  | .hbm, ⟨2, _⟩ => ⟨S16384, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S1x8, .i32⟩
  | .hbm, ⟨8, _⟩ => ⟨S256x8, .i32⟩
  | .hbm, ⟨9, _⟩ => ⟨S256x8, .i32⟩
  | .hbm, ⟨10, _⟩ => ⟨S16384x16384, .f32⟩
  | .hbm, ⟨11, _⟩ => ⟨S_, .i32⟩
  | .hbm, ⟨12, _⟩ => ⟨S256x8, .i32⟩
  | .hbm, ⟨13, _⟩ => ⟨S256x8, .i1⟩
  | .hbm, ⟨14, _⟩ => ⟨S_, .i32⟩
  | .hbm, ⟨15, _⟩ => ⟨S256x8, .i32⟩
  | .hbm, ⟨16, _⟩ => ⟨S256x8, .i32⟩
  | .hbm, ⟨17, _⟩ => ⟨S256x8, .i32⟩
  | .hbm, ⟨18, _⟩ => ⟨S256x8x1, .i32⟩
  | .hbm, ⟨19, _⟩ => ⟨S256x8x16384, .f32⟩
  | .hbm, ⟨20, _⟩ => ⟨S_, .f32⟩
  | .hbm, ⟨21, _⟩ => ⟨S256x16384, .f32⟩
  | .hbm, ⟨22, _⟩ => ⟨S1x16384, .f32⟩
  | .hbm, ⟨23, _⟩ => ⟨S256x16384, .f32⟩
  | .hbm, ⟨24, _⟩ => ⟨S256x16384, .f32⟩
  | .hbm, ⟨25, _⟩ => ⟨S256x8x2048, .f32⟩
  | _, _ => ⟨S256x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S1x8_1 : S8.BroadcastsInDim S1x8 (![1] : Fin 1 → Fin S1x8.rank)
  bcast_S1x8_S256x8_0_1 : S1x8.BroadcastsInDim S256x8 (![0, 1] : Fin 2 → Fin S256x8.rank)
  transposes_S16384x16384_S16384x16384_1_0 : S16384x16384.Transposes [1, 0] S16384x16384
  bcast_S_S256x8 : S_.BroadcastsInDim S256x8 (![] : Fin 0 → Fin S256x8.rank)
  bcast_S256x8_S256x8x1_0_1 : S256x8.BroadcastsInDim S256x8x1 (![0, 1] : Fin 2 → Fin S256x8x1.rank)
  reducesTo_S256x8x16384_S256x16384_d1 : S256x8x16384.ReducesTo [1] S256x16384
  h_S_ : 0 < S_.numel
  bcast_S16384_S1x16384_1 : S16384.BroadcastsInDim S1x16384 (![1] : Fin 1 → Fin S1x16384.rank)
  bcast_S1x16384_S256x16384_0_1 : S1x16384.BroadcastsInDim S256x16384 (![0, 1] : Fin 2 → Fin S256x16384.rank)
  shapeCasts_S256x16384_S256x8x2048 : S256x16384.ShapeCasts S256x8x2048
  gather_S16384x16384_S256x8x1_S256x8x16384_2_0_n_n_0_2_116384_wf : GatherDims.WF S16384x16384 S256x8x1 S256x8x16384 [2] [0] [] [0] [] 2 ![1, 16384]

variable [Facts₀]

def gather_S16384x16384_S256x8x1_S256x8x16384_2_0_n_n_0_2_116384 : GatherDims S16384x16384 S256x8x1 S256x8x16384 where
  offsetDims := [2]
  collapsedSliceDims := [0]
  operandBatchingDims := []
  startIndicesBatchingDims := []
  startIndexMap := [0]
  indexVectorDim := 2
  sliceSizes := ![1, 16384]
  wf := gather_S16384x16384_S256x8x1_S256x8x16384_2_0_n_n_0_2_116384_wf

class Facts : Prop extends Facts₀ where

variable [Facts]
-- ==== Proof.PreRange.lean ====
/-
  What the precondition says about the token ids: every entry of `x`, read as an unsigned word, is below 2048.
  The precondition's last two conjuncts are `all (x ≥ 0)` and `all (x < 2048)`, both signed comparisons; a word that
  is non-negative as a signed integer and signed-below 2048 has unsigned value below 2048.
-/
import proofs.«415443_j43250320670751_1_alg».proof.Pre_finite_inputs
import Idealize.ShloMosaic.Lib.ReduceAll
import Idealize.ShloMosaic.Lib.StableHlo.Predicate
import Idealize.ShloMosaic.Lib.ValueIdx

noncomputable section

namespace Cert.PreRange

open Idealize.ShloMosaic

/-- Under the precondition every token id is in `[0, 2048)`. -/
theorem x_range {F : FTy → Type} [FloatOps F] [Cert.Pre_finite_inputs.Facts]
    (x : IVec Cert.Pre_finite_inputs.S256x8 32) (W : FVec F Cert.Pre_finite_inputs.S16384x16384 .f32)
    (b : FVec F Cert.Pre_finite_inputs.S16384 .f32)
    (h : Cert.Pre_finite_inputs.fn (F := F) x W b = fun _ => 1#1) :
    ∀ i : Cert.Pre_finite_inputs.S256x8.Idx, (x i).toNat < 2048 := by
  intro i
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1, andi] at h0
  obtain ⟨h12, h15⟩ := IntOp.andi_eq_one.1 h0
  obtain ⟨-, h11⟩ := IntOp.andi_eq_one.1 h12
  -- each all-reduction being 1 gives the comparison bit 1 at the index i
  have hge := Host.reduce_andi_all _ _ _ _ _ h11 i
  have hlt := Host.reduce_andi_all _ _ _ _ _ h15 i
  dsimp only [cmpi] at hge hlt
  rw [StableHlo.Predicate.bcast_scalar _ Cert.Pre_finite_inputs.Facts.h_S_, IntOp.cmpi_sge] at hge
  rw [StableHlo.Predicate.bcast_scalar _ Cert.Pre_finite_inputs.Facts.h_S_, IntOp.cmpi_slt] at hlt
  dsimp only [constantI] at hge hlt
  -- a word with 0 ≤ toInt < 2048 has toNat < 2048
  have e0 : (0#32 : BitVec 32).toInt = 0 := by decide
  have e1 : (2048#32 : BitVec 32).toInt = 2048 := by decide
  rw [e0] at hge
  rw [e1] at hlt
  have hx : 2 * (x i).toNat < 2 ^ 32 := BitVec.toInt_pos_iff.1 hge
  rw [BitVec.toInt_eq_toNat_of_lt hx] at hlt
  omega

end Cert.PreRange

end
-- ==== Proof.Spec.lean ====
/-
  The function both programs compute, stated once over the argument arrays.

  Row `r` of `x` holds eight token ids, one per position `j`. Position `j` owns the 2048 consecutive
  columns `2048 j, …, 2048 j + 2047` of the weight matrix, and a token id `v` in `[0, 2048)` selects
  column `2048 j + v` among them. The result at `(r, m)` is the sum over the eight positions of row
  `m` of `W` at the selected column, plus the bias at `m`.

  The one law the kernel's side needs is here as well: a row of zeros with a single one at place
  `v`, multiplied entry by entry with any row of extended reals and summed, gives that row's entry at
  `v`. It uses only `0 · a = 0` and `1 · a = a`, which hold for every extended real, infinite ones
  included.
-/
import Idealize.ShloMosaic.PureOps.Ideal
import Idealize.ShloMosaic.Lib.ValueIdx
import Idealize.ShloMosaic.Lib.StableHlo.Predicate

noncomputable section

namespace Cert.Spec

open Idealize.ShloMosaic Idealize.ShloMosaic.ValueIdx

/-- Token ids: 256 rows, 8 positions. -/
abbrev SX : Shape := ⟨2, ![256, 8]⟩
/-- The weight matrix. -/
abbrev SW : Shape := ⟨2, ![16384, 16384]⟩
/-- The bias. -/
abbrev SB : Shape := ⟨1, ![16384]⟩
/-- The result before its last re-layout. -/
abbrev SO : Shape := ⟨2, ![256, 16384]⟩

/-- The column position `j` of row `r` selects: `2048 j` plus the token id. The id is reduced modulo 2048
    so that the column exists for every word; for an id already below 2048 the reduction changes nothing. -/
def col (x : IVec SX 32) (r : Fin 256) (j : Fin 8) : Fin 16384 :=
  ⟨2048 * j.val + (x (ix2 r j)).toNat % 2048, by
    have hj := j.isLt
    have hm := Nat.mod_lt (x (ix2 r j)).toNat (by decide : 0 < 2048)
    omega⟩

/-- The gather-sum: at `(r, m)`, the eight selected entries of row `m` of `W`, added, plus the bias at `m`. -/
def G (x : IVec SX 32) (W : SW.Idx → EReal) (b : SB.Idx → EReal) : SO.Idx → EReal :=
  fun i => (∑ j : Fin 8, W (ix2 (i 1) (col x (i 0) j))) + b (ix1 (i 1))

/-- Under the range hypothesis the selected column is `2048 j + id` itself. -/
theorem col_val (x : IVec SX 32) (r : Fin 256) (j : Fin 8) (h : (x (ix2 r j)).toNat < 2048) :
    (col x r j).val = 2048 * j.val + (x (ix2 r j)).toNat := by
  show 2048 * j.val + (x (ix2 r j)).toNat % 2048 = _
  rw [Nat.mod_eq_of_lt h]

/-- A word below 2048 equals the word of `q < 2048` exactly when its value is `q`. -/
theorem eq_ofNat_iff (w : BitVec 32) (q : Nat) (hq : q < 2048) : w = BitVec.ofNat 32 q ↔ w.toNat = q := by
  constructor
  · intro h; rw [h, BitVec.toNat_ofNat]; exact Nat.mod_eq_of_lt (by omega)
  · intro h; apply BitVec.eq_of_toNat_eq; rw [BitVec.toNat_ofNat, h]; exact (Nat.mod_eq_of_lt (by omega)).symm

/-- THE ONE-HOT LAW. The comparison of a word `w < 2048` with each place `q`, read as the number 0 or 1,
    times any row `v`, summed over the places: the row's entry at `w`. -/
theorem onehot_sum (w : BitVec 32) (hw : w.toNat < 2048) (v : Fin 2048 → EReal) :
    ∑ q : Fin 2048, (((IntOp.cmpi .eq w (BitVec.ofNat 32 q.val)).toNat : ℝ) : EReal) * v q = v ⟨w.toNat, hw⟩ := by
  rw [Finset.sum_eq_single (⟨w.toNat, hw⟩ : Fin 2048)]
  · have h1 : IntOp.cmpi .eq w (BitVec.ofNat 32 w.toNat) = 1#1 :=
      StableHlo.Predicate.cmpi_eq_iff.mpr ((eq_ofNat_iff w w.toNat hw).mpr rfl)
    show (((IntOp.cmpi .eq w (BitVec.ofNat 32 w.toNat)).toNat : ℝ) : EReal) * _ = _
    rw [h1]
    simp
  · intro q _ hq
    have h0 : IntOp.cmpi .eq w (BitVec.ofNat 32 q.val) = 0#1 :=
      eq_zero_of_ne_one fun h =>
        hq (Fin.ext ((eq_ofNat_iff w q.val q.isLt).mp (StableHlo.Predicate.cmpi_eq_iff.mp h)).symm)
    rw [h0]
    simp
  · intro h; exact absurd (Finset.mem_univ _) h

end Cert.Spec

end
-- ==== Proof.RefSide.lean ====
/-
  The reference's side: what jnp's gather-sum computes, index by index.

  The reference adds `2048 j` to the token id at position `j`, counts a negative sum from the end, gathers that row
  of the transposed weight matrix, sums the eight gathered rows and adds the bias. For ids in `[0, 2048)` the sum
  `id + 2048 j` neither wraps nor is negative nor leaves `[0, 16384)`, so the gather reads row `2048 j + id` of the
  transpose unclamped, which is column `2048 j + id` of the matrix.
-/
import proofs.«415443_j43250320670751_1_alg».proof.Defs
import proofs.«415443_j43250320670751_1_alg».proof.Proof.Gen.ReferenceIdeal.Run
import proofs.«415443_j43250320670751_1_alg».proof.Proof.Gen.ReferenceIdeal.Read
import proofs.«415443_j43250320670751_1_alg».proof.Proof.Spec

noncomputable section

namespace Cert.RefSide

open Idealize.ShloMosaic Idealize.ShloMosaic.ValueIdx Cert.ReferenceIdeal

/-- The word `id + 2048 k` for an id below 2048 and a position below 8: no wrap. -/
theorem word_toNat (w : BitVec 32) (k : Fin 8) (hw : w.toNat < 2048) :
    (IntOp.addi w (IntOp.muli (BitVec.ofNat 32 k.val) 2048#32)).toNat = w.toNat + 2048 * k.val := by
  unfold IntOp.addi IntOp.muli
  have hk := k.isLt
  simp only [BitVec.toNat_add, BitVec.toNat_mul, BitVec.toNat_ofNat]
  omega

/-- The start word before the sign test, at `(r, k)`: the id plus the word of `k` times 2048. -/
theorem v5_eq (x : IVec S256x8 32) (r : Fin 256) (k : Fin 8) :
    Read.val_main_v5 (F := Ideal) x (ix2 r k) = IntOp.addi (x (ix2 r k)) (IntOp.muli (BitVec.ofNat 32 k.val) 2048#32) := by
  rw [Read.val_main_v5_apply, Read.val_main_v4_apply, Read.val_main_v3_apply, Read.val_main_v2_apply,
    Read.val_main_v0_apply, Read.val_main_v1_apply, Read.val_main_c_apply]

/-- For an id below 2048 the start word is not negative, so the select keeps it. -/
theorem v11_eq (x : IVec S256x8 32) (r : Fin 256) (k : Fin 8) (hw : (x (ix2 r k)).toNat < 2048) :
    Read.val_main_v11 (F := Ideal) x (ix2 r k) = Read.val_main_v5 (F := Ideal) x (ix2 r k) := by
  have hk := k.isLt
  have h5 : (Read.val_main_v5 (F := Ideal) x (ix2 r k)).toNat = (x (ix2 r k)).toNat + 2048 * k.val := by
    rw [v5_eq]; exact word_toNat _ _ hw
  rw [Read.val_main_v11_apply, Read.val_main_v8_apply, Read.val_main_v7_apply, Read.val_main_c_0_apply]
  have h0 : IntOp.cmpi .slt (Read.val_main_v5 (F := Ideal) x (ix2 r k)) 0#32 = 0#1 :=
    eq_zero_of_ne_one fun h => by
      have := (StableHlo.Predicate.slt_iff_toNat (by omega) (by decide)).mp h
      simp at this
  rw [h0, select_zero]

/-- The gather's dimension numbers: offset axis 2, collapsed operand axis 0, start index map `[0]`, index vector axis 2,
    slices `1 × 16384`. -/
local notation "gd" => gather_S16384x16384_S256x8x1_S256x8x16384_2_0_n_n_0_2_116384

/-- THE GATHER READ AT `(r, k, m)`: the operand at the row given by the start index `idx[r, k, 0]`, read signed and
    clamped into `[0, 16383]`, and at column `m`. -/
theorem gather_read [Cert.ReferenceIdeal.Facts] {α : Type} (y : S16384x16384.Idx → α) (idx : IVec S256x8x1 32)
    (r : Fin 256) (k : Fin 8) (m : Fin 16384) :
    Host.gather gd y idx (ix3 r k m)
      = y (ix2 (⟨min (idx (ix3 r k (0 : Fin 1))).toInt.toNat 16383, by omega⟩ : Fin 16384) m) := by
  unfold Host.gather
  congr 1
  funext a
  refine Fin.ext ?_
  match a with
  | ⟨0, _⟩ =>
    show GatherDims.start gd (ix3 r k m) idx 0 + GatherDims.batchCoord gd (ix3 r k m) 0
      + GatherDims.offCoord gd (ix3 r k m) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gd from List.mem_singleton.mpr rfl)]
    have hsi : GatherDims.siIdx gd (ix3 r k m) ⟨List.idxOf (0 : Fin 2) (GatherDims.startIndexMap gd),
        List.idxOf_lt_length_iff.2 (List.mem_singleton.mpr rfl)⟩ = ix3 r k (0 : Fin 1) := by
      funext b; refine Fin.ext ?_
      match b with
      | ⟨0, _⟩ => rfl
      | ⟨1, _⟩ => rfl
      | ⟨2, _⟩ => rfl
    rw [hsi]
    rfl
  | ⟨1, _⟩ =>
    show GatherDims.start gd (ix3 r k m) idx 1 + GatherDims.batchCoord gd (ix3 r k m) 1
      + GatherDims.offCoord gd (ix3 r k m) 1 = _
    rw [GatherDims.batchCoord_eq_zero _ _ _ List.not_mem_nil]
    unfold GatherDims.start
    rw [dif_neg (show ¬ (1 : Fin 2) ∈ GatherDims.startIndexMap gd by
      show ¬ (1 : Fin 2) ∈ [(0 : Fin 2)]; decide)]
    simp only [Nat.add_zero, Nat.zero_add]
    unfold GatherDims.offCoord
    rw [dif_pos (show (1 : Fin 2) ∈ GatherDims.sKept gd from
      (GatherDims.mem_sKept _ _).mpr ⟨by show ¬ (1 : Fin 2) ∈ [(0 : Fin 2)]; decide, List.not_mem_nil⟩)]
    rfl

/-- The gathered element at `(r, k, m)`: for an id below 2048 the start word `id + 2048 k` is neither negative nor
    outside `[0, 16383]`, so the gather reads row `2048 k + id` of the transpose at column `m`. -/
theorem gathered [Cert.ReferenceIdeal.Facts] (x : IVec S256x8 32) (W : FVec Ideal S16384x16384 .f32)
    (r : Fin 256) (k : Fin 8) (m : Fin 16384) (hw : (x (ix2 r k)).toNat < 2048) :
    Read.val_main_v13 (F := Ideal) x W (ix3 r k m) = W (ix2 m (Cert.Spec.col x r k)) := by
  have hk := k.isLt
  have h5 : (Read.val_main_v5 (F := Ideal) x (ix2 r k)).toNat = (x (ix2 r k)).toNat + 2048 * k.val := by
    rw [v5_eq]; exact word_toNat _ _ hw
  have hidx : Read.val_main_v12 (F := Ideal) x (ix3 r k (0 : Fin 1)) = Read.val_main_v5 (F := Ideal) x (ix2 r k) := by
    rw [Read.val_main_v12_apply]
    have h12 : Read.idx_main_v12 (ix3 r k (0 : Fin 1)) = ix2 r k := by
      funext a; match a with | ⟨0, _⟩ => rfl | ⟨1, _⟩ => rfl
    rw [h12, v11_eq x r k hw]
  unfold Read.val_main_v13
  rw [gather_read, Read.val_main_v6_apply]
  congr 1
  funext a
  refine Fin.ext ?_
  match a with
  | ⟨0, _⟩ => rfl
  | ⟨1, _⟩ =>
    show min (Read.val_main_v12 (F := Ideal) x (ix3 r k (0 : Fin 1))).toInt.toNat 16383 = (Cert.Spec.col x r k).val
    rw [hidx, Cert.Spec.col_val x r k hw, StableHlo.Predicate.toInt_eq_toNat_of_lt (by omega), h5]
    simp only [Int.toNat_natCast]
    omega

/-- For token ids in range, the reference's sum before its last re-layout is the gather-sum. -/
theorem ref_eq [Cert.ReferenceIdeal.Facts] (x : IVec S256x8 32) (W : FVec Ideal S16384x16384 .f32) (b : FVec Ideal S16384 .f32)
    (hx : ∀ i : S256x8.Idx, (x i).toNat < 2048) :
    Cert.ReferenceIdeal.Read.val_main_v17 (F := Ideal) x W b = Cert.Spec.G x W b := by
  funext i
  rw [Read.val_main_v17_apply, Read.val_main_v14_apply, Read.val_main_v16_apply, Read.val_main_v15_apply,
    Read.val_main_cst_apply, Ideal.addf_def, Ideal.ofBits_def, Ideal.ofBits_zero_f32, zero_add]
  unfold Cert.Spec.G
  congr 1
  · refine Finset.sum_congr rfl fun k _ => ?_
    have h14 : Read.idx_main_v14 i k = ix3 (i 0) k (i 1) := by
      funext a; match a with | ⟨0, _⟩ => rfl | ⟨1, _⟩ => rfl | ⟨2, _⟩ => rfl
    rw [h14]
    exact gathered x W (i 0) k (i 1) (hx _)
  · congr 1
    funext a; match a with | ⟨0, _⟩ => rfl

end Cert.RefSide

end
-- ==== Proof.KernelPieces.lean ====
/-
  What one run of the kernel body leaves behind, case by case, as values.

  The body keeps a running sum in a scratch block. At the first step of a column block (`k = 0`) it stores the zero
  block, reads it back and adds this step's product to it; at every later step it adds this step's product to what
  the step before left; at the last step (`k = 7`) it also writes the running sum plus the bias row into the output
  block. Here `step x0 x1 acc` is `acc` plus the product of the one-hot block `x0` with the weight block `x1`
  (contracting both along their second axis), and `withBias acc x2` is `acc` plus the bias row `x2` repeated down the
  rows. The statements hold for any float instance.
-/
import proofs.«415443_j43250320670751_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offsets of every access of the body: the whole block, from its corner. -/
theorem corner : (![0, 0] : Fin 2 → Nat) = fun _ => 0 := funext fun a => by fin_cases a <;> rfl

/-- FIRST STEP: the scratch ends at the zero block plus this step's product. -/
theorem scratch_first (c : Dev nD) (i : grid0.Coords) (arg2 : Memref sig .tc .vmem S256x2048 .bf16) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (hc0 : cond0_0 i) (hc1 : ¬cond0_1 i)
    (x0 : Vec F S256x2048 .bf16) (x1 : Vec F S2048x2048 .f32) (x2 : Vec F S1x2048 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S256x2048) corner, View.readCov_unit_zero (S := S256x2048) _ corner]
  simp only [View.readAt_eq_ld, harg2.read_unread, harg3.read_unread, View.ld_unit_zero (S := S256x2048) corner,
    View.ld_unit_zero (S := S2048x2048) corner]

/-- A MIDDLE STEP: the scratch ends at what the step before left plus this step's product. -/
theorem scratch_middle (c : Dev nD) (i : grid0.Coords) (arg2 : Memref sig .tc .vmem S256x2048 .bf16) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (hc0 : ¬cond0_0 i) (hc1 : ¬cond0_1 i)
    (x0 : Vec F S256x2048 .bf16) (x1 : Vec F S2048x2048 .f32) (x2 : Vec F S1x2048 .f32) (xs0 : Vec F S256x2048 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero corner]
  simp only [View.readAt_eq_ld, harg2.read_unread, harg3.read_unread, harg6.read_unread, View.ld_unit_zero (S := S256x2048) corner,
    View.ld_unit_zero (S := S2048x2048) corner]

/-- THE LAST STEP, the scratch: as at a middle step. -/
theorem scratch_last (c : Dev nD) (i : grid0.Coords) (arg2 : Memref sig .tc .vmem S256x2048 .bf16) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (hc0 : ¬cond0_0 i) (hc1 : cond0_1 i)
    (x0 : Vec F S256x2048 .bf16) (x1 : Vec F S2048x2048 .f32) (x2 : Vec F S1x2048 .f32) (xs0 : Vec F S256x2048 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero corner]
  simp only [View.readAt_eq_ld, harg2.read_unread, harg3.read_unread, harg6.read_unread, View.ld_unit_zero (S := S256x2048) corner,
    View.ld_unit_zero (S := S2048x2048) corner]

/-- THE LAST STEP, the output block: the updated running sum plus the bias row. -/
theorem out_last (c : Dev nD) (i : grid0.Coords) (arg2 : Memref sig .tc .vmem S256x2048 .bf16) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (hc0 : ¬cond0_0 i) (hc1 : cond0_1 i)
    (x0 : Vec F S256x2048 .bf16) (x1 : Vec F S2048x2048 .f32) (x2 : Vec F S1x2048 .f32) (xs0 : Vec F S256x2048 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero corner]
  simp only [View.readAt_eq_ld, harg2.read_unread, harg3.read_unread, harg4.read_unread, harg6.read_unread,
    View.readCov_unit_zero (S := S256x2048) _ corner, View.ld_unit_zero (S := S256x2048) corner,
    View.ld_unit_zero (S := S2048x2048) corner, View.ld_unit_zero (S := S1x2048) corner]

end Cert.KernelIdeal.Pieces

end
-- ==== Proof.KernelBlocks.lean ====
/-
  The three input blocks the kernel body sees at a grid point, read out of the arrays they are blocks of.

  The 64 grid points are numbered `t = 8 n + k`: `n` is the block of 2048 output columns, `k` the step along the
  contracted axis. At point `t` the selector's block is its columns `2048 k …`, the weight matrix's block is rows
  `2048 n …` and columns `2048 k …`, and the bias row's block is its columns `2048 n …`.
-/
import proofs.«415443_j43250320670751_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The selector's block at point `t`. -/
abbrev selBlk (c : Dev nD) (t : Fin cfg0.N) : Vec F S256x2048 .bf16 := iblk m c 0 t
/-- The weight matrix's block at point `t`. -/
abbrev wBlk (c : Dev nD) (t : Fin cfg0.N) : Vec F S2048x2048 .f32 := iblk m c 1 t
/-- The bias row's block at point `t`. -/
abbrev biasBlk (c : Dev nD) (t : Fin cfg0.N) : Vec F S1x2048 .f32 := iblk m c 2 t

/-- The selector's array, the weight matrix and the bias row as the launch finds them. -/
abbrev selArr (c : Dev nD) : Vec F S256x16384 .bf16 := V m c main_v1
abbrev wArr (c : Dev nD) : Vec F S16384x16384 .f32 := V m c main_arg1
abbrev biasArr (c : Dev nD) : Vec F S1x16384 .f32 := V m c main_v2

/-- Which block each window is on at point `t`, decided over the 64 points. -/
theorem sel_index : ∀ t : Fin cfg0.N, win0_0.index t 0 = 0 ∧ win0_0.index t 1 = t.val % 8 :=
  (by decide +kernel : ∀ t : Fin grid0.N, win0_0.index t 0 = 0 ∧ win0_0.index t 1 = t.val % 8)
theorem w_index : ∀ t : Fin cfg0.N, win0_1.index t 0 = t.val / 8 ∧ win0_1.index t 1 = t.val % 8 :=
  (by decide +kernel : ∀ t : Fin grid0.N, win0_1.index t 0 = t.val / 8 ∧ win0_1.index t 1 = t.val % 8)
theorem bias_index : ∀ t : Fin cfg0.N, win0_2.index t 0 = 0 ∧ win0_2.index t 1 = t.val / 8 :=
  (by decide +kernel : ∀ t : Fin grid0.N, win0_2.index t 0 = 0 ∧ win0_2.index t 1 = t.val / 8)

/-- The selector's block at `(r, q)` is the selector at column `2048 (t % 8) + q`. -/
theorem selBlk_apply (c : Dev nD) (t : Fin cfg0.N) (r : Fin 256) (q : Fin 2048) (j : Fin 16384)
    (hj : j.val = 2048 * (t.val % 8) + q.val) :
    selBlk m c t (ix2 r q) = selArr m c (ix2 r j) := by
  have hi := sel_index t
  unfold selBlk iblk
  rw [View.read_apply]
  show V m c main_v1 _ = V m c main_v1 _
  congr 1
  funext a
  apply Fin.ext
  match a with
  | ⟨0, _⟩ => show win0_0.index t 0 * 256 + 1 * r.val = r.val; rw [hi.1]; omega
  | ⟨1, _⟩ => show win0_0.index t 1 * 2048 + 1 * q.val = j.val; rw [hi.2, hj]; omega

/-- The weight block at `(p, q)` is the matrix at row `2048 (t / 8) + p`, column `2048 (t % 8) + q`. -/
theorem wBlk_apply (c : Dev nD) (t : Fin cfg0.N) (p q : Fin 2048) (i j : Fin 16384)
    (hi' : i.val = 2048 * (t.val / 8) + p.val) (hj : j.val = 2048 * (t.val % 8) + q.val) :
    wBlk m c t (ix2 p q) = wArr m c (ix2 i j) := by
  have hi := w_index t
  unfold wBlk iblk
  rw [View.read_apply]
  show V m c main_arg1 _ = V m c main_arg1 _
  congr 1
  funext a
  apply Fin.ext
  match a with
  | ⟨0, _⟩ => show win0_1.index t 0 * 2048 + 1 * p.val = i.val; rw [hi.1, hi']; omega
  | ⟨1, _⟩ => show win0_1.index t 1 * 2048 + 1 * q.val = j.val; rw [hi.2, hj]; omega

/-- The bias block at `(0, p)` is the bias row at column `2048 (t / 8) + p`. -/
theorem biasBlk_apply (c : Dev nD) (t : Fin cfg0.N) (p : Fin 2048) (i : Fin 16384)
    (hi' : i.val = 2048 * (t.val / 8) + p.val) :
    biasBlk m c t (ix2 (0 : Fin 1) p) = biasArr m c (ix2 (0 : Fin 1) i) := by
  have hi := bias_index t
  unfold biasBlk iblk
  rw [View.read_apply]
  show V m c main_v2 _ = V m c main_v2 _
  congr 1
  funext a
  apply Fin.ext
  match a with
  | ⟨0, _⟩ => show win0_2.index t 0 * 1 + 1 * 0 = 0; rw [hi.1]
  | ⟨1, _⟩ => show win0_2.index t 1 * 2048 + 1 * p.val = i.val; rw [hi.2, hi']; omega

end Cert.KernelIdeal.Blocks

end
-- ==== Proof.KernelSteps.lean ====
/-
  The running sum from one grid point to the next.

  `acc t` is what the scratch block holds after the body has run at point `t`, and `outBlk t` what the output's
  staging block holds. At a point with `t % 8 = 0` the running sum starts afresh: the zero block plus this point's
  product. At every other point it is the previous point's running sum plus this point's product. At a point with
  `t % 8 = 7` the output block is that point's running sum plus the bias block.
-/
import proofs.«415443_j43250320670751_1_alg».proof.Proof.KernelPieces
import proofs.«415443_j43250320670751_1_alg».proof.Proof.KernelBlocks

noncomputable section

open Idealize.ShloMosaic Idealize.ShloMosaic.TcCoe Idealize.SL.Sem

namespace Cert.KernelIdeal.Steps

open Cert.KernelIdeal Cert.KernelIdeal.Gen Cert.KernelIdeal.Blocks

variable {F : FTy → Type} [FloatOps F]
variable (m : (ℓ : Loc nD τ sig) → Buf (Elt F) ℓ)

/-- The scratch block after point `t`. -/
abbrev acc (c : Dev nD) (t : Fin cfg0.N) : Vec F S256x2048 .f32 := (outsAt0 m c t.val t.isLt).2
/-- The output's staging block after point `t`. -/
abbrev outBlk (c : Dev nD) (t : Fin cfg0.N) : Vec F S256x2048 .f32 := (outsAt0 m c t.val t.isLt).1

/-- The point before `t`. -/
abbrev prev (t : Fin cfg0.N) : Fin cfg0.N := ⟨t.val - 1, Nat.lt_of_le_of_lt (Nat.sub_le _ _) t.isLt⟩

/-- A FRESH START: `t % 8 = 0`. -/
theorem acc_first (c : Dev nD) (t : Fin cfg0.N) (h0 : t.val % 8 = 0) :
    acc m c t = k0_pay2 (selBlk m c t) (wBlk m c t) (k0_pay1 (F := F)) := by
  have h1 : ¬t.val % 8 = 7 := by omega
  unfold acc
  rw [outsAt0_A m c t h0 h1]
  dsimp only
  exact Pieces.scratch_first (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- A LATER STEP: `t % 8 ≠ 0`. -/
theorem acc_next (c : Dev nD) (t : Fin cfg0.N) (h0 : ¬t.val % 8 = 0) :
    acc m c t = k0_pay2 (selBlk m c t) (wBlk m c t) (acc m c (prev t)) := by
  unfold acc
  by_cases h1 : t.val % 8 = 7
  · rw [outsAt0_C m c t h0 h1]
    dsimp only
    exact Pieces.scratch_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2
  · rw [outsAt0_B m c t h0 h1]
    dsimp only
    exact Pieces.scratch_middle (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (iblk m c 0 t) (iblk m c 1 t) (iblk m c 2 t) (outsAt0 m c (t.val - 1) (Nat.lt_of_le_of_lt (Nat.sub_le _ _) t.isLt)).2

/-- THE LAST STEP's output block: `t % 8 = 7`. -/
theorem outBlk_last (c : Dev nD) (t : Fin cfg0.N) (h1 : t.val % 8 = 7) :
    outBlk m c t = k0_pay3 (acc m c t) (biasBlk m c t) := by
  have h0 : ¬t.val % 8 = 0 := by omega
  rw [acc_next m c t h0]
  unfold outBlk
  rw [outsAt0_C m c t h0 h1]
  dsimp only
  exact Pieces.out_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

end Cert.KernelIdeal.Steps

end
-- ==== Proof.KernelPayIdx.lean ====
/-
  The body's three values read at an index, over the extended reals.

  * The reset block is zero everywhere.
  * One step: at row `r`, column `p` of the block, the running sum's entry plus the sum over the 2048 places `q` of
    the one-hot block at `(r, q)` times the weight block at `(p, q)`. The product contracts the SECOND axis of both
    blocks, so the weight block is used as it lies in memory, not transposed; narrowing it to a shorter float
    format changes no value over the extended reals.
  * The output: the running sum's entry plus the bias row's entry at the same column `p`.
-/
import proofs.«415443_j43250320670751_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.PayIdx

open Cert.KernelIdeal Cert.KernelIdeal.Gen

variable [Cert.KernelIdeal.Facts]

/-! ### The product's two operand positions, axis by axis -/

/-- The one-hot block is read in the output's row. -/
theorem lhs_row (j : S256x2048.Idx) (k : dot_S256x2048_S2048x2048_S256x2048_1_1_0_0_n_n.contr.Idx) :
    (dot_S256x2048_S2048x2048_S256x2048_1_1_0_0_n_n.lhsIdx j k 0).val = (j 0).val := by
  unfold DotDims.lhsIdx
  rw [dif_neg (show ¬(0 : Fin S256x2048.rank) ∈ dot_S256x2048_S2048x2048_S256x2048_1_1_0_0_n_n.lhsBatch by decide),
    dif_pos (show (0 : Fin S256x2048.rank) ∈ dot_S256x2048_S2048x2048_S256x2048_1_1_0_0_n_n.lhsNonContracting by decide)]
  rfl

/-- …at the contracted place. -/
theorem lhs_place (j : S256x2048.Idx) (k : dot_S256x2048_S2048x2048_S256x2048_1_1_0_0_n_n.contr.Idx) :
    (dot_S256x2048_S2048x2048_S256x2048_1_1_0_0_n_n.lhsIdx j k 1).val = (k ⟨0, by decide⟩).val :=
  dot_S256x2048_S2048x2048_S256x2048_1_1_0_0_n_n.lhsIdx_val_of_single (cl := 1) rfl j k

/-- The weight block is read in the row that is the output's column… -/
theorem rhs_row (j : S256x2048.Idx) (k : dot_S256x2048_S2048x2048_S256x2048_1_1_0_0_n_n.contr.Idx) :
    (dot_S256x2048_S2048x2048_S256x2048_1_1_0_0_n_n.rhsIdx j k 0).val = (j 1).val := by
  unfold DotDims.rhsIdx
  rw [dif_neg (show ¬(0 : Fin S2048x2048.rank) ∈ dot_S256x2048_S2048x2048_S256x2048_1_1_0_0_n_n.rhsBatch by decide),
    dif_pos (show (0 : Fin S2048x2048.rank) ∈ dot_S256x2048_S2048x2048_S256x2048_1_1_0_0_n_n.rhsNonContracting by decide)]
  rfl

/-- …at the contracted place. -/
theorem rhs_place (j : S256x2048.Idx) (k : dot_S256x2048_S2048x2048_S256x2048_1_1_0_0_n_n.contr.Idx) :
    (dot_S256x2048_S2048x2048_S256x2048_1_1_0_0_n_n.rhsIdx j k 1).val = (k ⟨0, by decide⟩).val :=
  dot_S256x2048_S2048x2048_S256x2048_1_1_0_0_n_n.rhsIdx_val_of_single (cr := 1) rfl j k

/-- THE PRODUCT AT `(r, p)`, into the zero block: the sum over the 2048 places of the entries' products. -/
theorem product_apply (a : FVec Ideal S256x2048 .bf16) (w : FVec Ideal S2048x2048 .bf16) (r : Fin 256) (p : Fin 2048) :
    matmul dot_S256x2048_S2048x2048_S256x2048_1_1_0_0_n_n none a w (constant S256x2048 .f32 0x00000000#32) (ix2 r p)
      = ∑ q : Fin 2048, a (ix2 r q) * w (ix2 p q) := by
  show FloatOps.matmul dot_S256x2048_S2048x2048_S256x2048_1_1_0_0_n_n none a w (constant S256x2048 .f32 0x00000000#32) (ix2 r p) = _
  rw [Ideal.matmul_constant_zero_apply, ← Equiv.sum_comp (contrEquiv1 dot_S256x2048_S2048x2048_S256x2048_1_1_0_0_n_n 2048 rfl rfl).symm]
  refine Finset.sum_congr rfl fun q _ => ?_
  have hq := contrEquiv1_symm_val dot_S256x2048_S2048x2048_S256x2048_1_1_0_0_n_n 2048 rfl rfl q
  have hl : dot_S256x2048_S2048x2048_S256x2048_1_1_0_0_n_n.lhsIdx (ix2 r p) ((contrEquiv1 dot_S256x2048_S2048x2048_S256x2048_1_1_0_0_n_n 2048 rfl rfl).symm q) = ix2 r q := by
    funext ax; apply Fin.ext
    match ax with
    | ⟨0, _⟩ => exact lhs_row _ _
    | ⟨1, _⟩ => exact (lhs_place _ _).trans hq
  have hr : dot_S256x2048_S2048x2048_S256x2048_1_1_0_0_n_n.rhsIdx (ix2 r p) ((contrEquiv1 dot_S256x2048_S2048x2048_S256x2048_1_1_0_0_n_n 2048 rfl rfl).symm q) = ix2 p q := by
    funext ax; apply Fin.ext
    match ax with
    | ⟨0, _⟩ => exact rhs_row _ _
    | ⟨1, _⟩ => exact (rhs_place _ _).trans hq
  rw [hl, hr]

/-! ### The three values -/

/-- The reset block is zero. -/
theorem reset_apply (i : S256x2048.Idx) : k0_pay1 (F := Ideal) i = 0 := by
  unfold k0_pay1
  rw [shapeCast_self]
  show Ideal.ofBits .f32 0x00000000#32 = 0
  exact Ideal.ofBits_zero_f32

/-- One step at `(r, p)`. -/
theorem step_apply (x0 : Vec Ideal S256x2048 .bf16) (x1 : Vec Ideal S2048x2048 .f32) (acc : Vec Ideal S256x2048 .f32)
    (r : Fin 256) (p : Fin 2048) :
    k0_pay2 (F := Ideal) x0 x1 acc (ix2 r p) = acc (ix2 r p) + ∑ q : Fin 2048, x0 (ix2 r q) * x1 (ix2 p q) := by
  unfold k0_pay2
  simp only [shapeCast_self]
  rw [addf_apply, product_apply]
  rfl

/-- The output at `(r, p)`. -/
theorem out_apply (acc : Vec Ideal S256x2048 .f32) (x2 : Vec Ideal S1x2048 .f32) (r : Fin 256) (p : Fin 2048) :
    k0_pay3 (F := Ideal) acc x2 (ix2 r p) = acc (ix2 r p) + x2 (ix2 (0 : Fin 1) p) := by
  unfold k0_pay3
  simp only [shapeCast_self]
  rw [addf_apply, broadcastTo_1b_ab_apply]

end Cert.KernelIdeal.PayIdx

end
-- ==== Proof.KernelFold.lean ====
/-
  The running sum after any grid point, index by index, over the extended reals.

  Write `t = 8 n + k`. After point `t` the scratch block holds, at row `r` and column `p`, the sum over the steps
  `k' = 0, …, k` of that step's product: the sum over the 2048 places `q` of the selector at `(r, 2048 k' + q)` times
  the weight matrix at `(2048 n + p, 2048 k' + q)`. The first step adds its product to zero, and `0 + a = a` for
  every extended real; every later step adds its product to what the step before left.
-/
import proofs.«415443_j43250320670751_1_alg».proof.Proof.KernelSteps
import proofs.«415443_j43250320670751_1_alg».proof.Proof.KernelPayIdx

noncomputable section

open Idealize.ShloMosaic Idealize.ShloMosaic.TcCoe Idealize.SL.Sem Idealize.ShloMosaic.ValueIdx

namespace Cert.KernelIdeal.Fold

open Cert.KernelIdeal Cert.KernelIdeal.Gen Cert.KernelIdeal.Blocks Cert.KernelIdeal.Steps

variable [Cert.KernelIdeal.Facts]
variable (m : (ℓ : Loc nD τ sig) → Buf (Elt Ideal) ℓ)

/-- Position `2048 k + q` among 16384, for any natural `k` (reduced, so that it always exists; for `k < 8` the
    reduction changes nothing). -/
def at16 (k : ℕ) (q : Fin 2048) : Fin 16384 := ⟨(2048 * k + q.val) % 16384, Nat.mod_lt _ (by decide)⟩

theorem at16_val (k : ℕ) (hk : k < 8) (q : Fin 2048) : (at16 k q).val = 2048 * k + q.val := by
  have hq := q.isLt
  show (2048 * k + q.val) % 16384 = _
  exact Nat.mod_eq_of_lt (by omega)

/-- Step `k` of column block `n`, at row `r` and column `p` of the block: the selector's row against the weight
    matrix's row, over the 2048 places of the step. -/
def prodAt (c : Dev nD) (n k : ℕ) (r : Fin 256) (p : Fin 2048) : EReal :=
  ∑ q : Fin 2048, selArr m c (ix2 r (at16 k q)) * wArr m c (ix2 (at16 n p) (at16 k q))

/-- The product of the two blocks at point `t` is step `t % 8` of column block `t / 8`. -/
theorem blocks_prod (c : Dev nD) (t : Fin cfg0.N) (r : Fin 256) (p : Fin 2048) :
    ∑ q : Fin 2048, selBlk m c t (ix2 r q) * wBlk m c t (ix2 p q) = prodAt m c (t.val / 8) (t.val % 8) r p := by
  have hN : cfg0.N = 64 := N_0
  have ht := t.isLt
  unfold prodAt
  refine Finset.sum_congr rfl fun q _ => ?_
  rw [selBlk_apply m c t r q (at16 (t.val % 8) q) (at16_val _ (by omega) q),
    wBlk_apply m c t p q (at16 (t.val / 8) p) (at16 (t.val % 8) q) (at16_val _ (by omega) p) (at16_val _ (by omega) q)]

/-- THE RUNNING SUM after point `n`. -/
theorem acc_eq (c : Dev nD) (n : ℕ) : ∀ (h : n < cfg0.N) (r : Fin 256) (p : Fin 2048),
    acc m c ⟨n, h⟩ (ix2 r p) = ∑ k ∈ Finset.range (n % 8 + 1), prodAt m c (n / 8) k r p := by
  induction n using Nat.strong_induction_on with
  | _ n ih =>
    intro h r p
    by_cases h0 : n % 8 = 0
    · rw [acc_first m c ⟨n, h⟩ h0, PayIdx.step_apply, PayIdx.reset_apply, zero_add, blocks_prod]
      show prodAt m c (n / 8) (n % 8) r p = _
      rw [h0, Finset.sum_range_one]
    · have hn : n ≠ 0 := fun e => h0 (by rw [e])
      rw [acc_next m c ⟨n, h⟩ h0, PayIdx.step_apply, blocks_prod]
      show acc m c ⟨n - 1, _⟩ (ix2 r p) + prodAt m c (n / 8) (n % 8) r p = _
      rw [ih (n - 1) (by omega) _ r p]
      have e1 : (n - 1) % 8 + 1 = n % 8 := by omega
      have e2 : (n - 1) / 8 = n / 8 := by omega
      rw [e1, e2, Finset.sum_range_succ]

end Cert.KernelIdeal.Fold

end
-- ==== Proof.KernelHost.lean ====
/-
  The two arrays the host writes before the kernel is launched, read at an index.

  The first is the one-hot selector: for row `r`, position `k` and place `q` it holds the number 1 when the token id
  `x[r, k]` is the word of `q`, and 0 otherwise; it is then laid out as a matrix of 16384 columns, place `q` of
  position `k` at column `2048 k + q`. The second is the bias, laid out as a single row.
-/
import proofs.«415443_j43250320670751_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.HostSide

open Cert.KernelIdeal Cert.KernelIdeal.Gen

variable [Cert.KernelIdeal.Facts]
variable (m : (ℓ : Loc nD τ sig) → Buf (Elt Ideal) ℓ)

/-- The one-hot selector before its re-layout: the comparison of each token id with each place, as a number. -/
def selector (x : IVec S256x8 32) : FVec Ideal S256x8x2048 .bf16 :=
  uitofp .bf16 (cmpi .eq
    (broadcastInDim S256x8x2048 ![0, 1, 2] bcast_S256x8x1_S256x8x2048_0_1_2
      (broadcastInDim S256x8x1 ![0, 1] bcast_S256x8_S256x8x1_0_1 x))
    (broadcastInDim S256x8x2048 ![0, 1, 2] bcast_S1x1x2048_S256x8x2048_0_1_2 (iotaInDim S1x1x2048 32 2)))

/-- At `(r, k, q)`: 1 if `x[r, k]` is the word of `q`, else 0. -/
theorem selector_apply (x : IVec S256x8 32) (r : Fin 256) (k : Fin 8) (q : Fin 2048) :
    selector x (ix3 r k q) = (((IntOp.cmpi .eq (x (ix2 r k)) (BitVec.ofNat 32 q.val)).toNat : ℝ) : EReal) := by
  unfold selector
  show (((IntOp.cmpi .eq _ _).toNat : ℝ) : EReal) = _
  have h1 : broadcastInDim S256x8x2048 ![0, 1, 2] bcast_S256x8x1_S256x8x2048_0_1_2
      (broadcastInDim S256x8x1 ![0, 1] bcast_S256x8_S256x8x1_0_1 x) (ix3 r k q) = x (ix2 r k) := by
    rw [broadcastInDim_apply _ bcast_S256x8x1_S256x8x2048_0_1_2 _ (ix3 r k q) (ix3 r k (0 : Fin 1)) (fun a => by
      match a with
      | ⟨0, _⟩ => show r.val = if (256 : Nat) = 1 then 0 else r.val; rw [if_neg (by decide)]
      | ⟨1, _⟩ => show k.val = if (8 : Nat) = 1 then 0 else k.val; rw [if_neg (by decide)]
      | ⟨2, _⟩ => show 0 = if (1 : Nat) = 1 then 0 else q.val; rw [if_pos rfl])]
    rw [broadcastInDim_apply _ bcast_S256x8_S256x8x1_0_1 x (ix3 r k (0 : Fin 1)) (ix2 r k) (fun a => by
      match a with
      | ⟨0, _⟩ => show r.val = if (256 : Nat) = 1 then 0 else r.val; rw [if_neg (by decide)]
      | ⟨1, _⟩ => show k.val = if (8 : Nat) = 1 then 0 else k.val; rw [if_neg (by decide)])]
  have h2 : broadcastInDim S256x8x2048 ![0, 1, 2] bcast_S1x1x2048_S256x8x2048_0_1_2 (iotaInDim S1x1x2048 32 2) (ix3 r k q)
      = BitVec.ofNat 32 q.val := by
    rw [broadcastInDim_apply _ bcast_S1x1x2048_S256x8x2048_0_1_2 _ (ix3 r k q) (ix3 (0 : Fin 1) (0 : Fin 1) q) (fun a => by
      match a with
      | ⟨0, _⟩ => show 0 = if (1 : Nat) = 1 then 0 else r.val; rw [if_pos rfl]
      | ⟨1, _⟩ => show 0 = if (1 : Nat) = 1 then 0 else k.val; rw [if_pos rfl]
      | ⟨2, _⟩ => show q.val = if (2048 : Nat) = 1 then 0 else q.val; rw [if_neg (by decide)])]
    rfl
  show (((IntOp.cmpi .eq (broadcastInDim S256x8x2048 ![0, 1, 2] bcast_S256x8x1_S256x8x2048_0_1_2
      (broadcastInDim S256x8x1 ![0, 1] bcast_S256x8_S256x8x1_0_1 x) (ix3 r k q))
      (broadcastInDim S256x8x2048 ![0, 1, 2] bcast_S1x1x2048_S256x8x2048_0_1_2 (iotaInDim S1x1x2048 32 2) (ix3 r k q))).toNat : ℝ) : EReal) = _
  rw [h1, h2]

/-- The array the first window stages is the selector laid out as a matrix. -/
theorem selector_array (c : Dev nD) :
    (V m c main_v1 : S256x16384.Idx → EReal)
      = shapeCast S256x16384 (selector (m ((c : Thread nD τ).loc main_arg0))) shapeCasts_S256x8x2048_S256x16384 := by
  dsimp only [V, V0]
  simp only [hostOps0, hostOps0_1, List.flatten_cons, List.flatten_nil, List.append_nil, List.cons_append, List.nil_append]
  after_results
  rfl

/-- The array the third window stages is the bias as one row. -/
theorem bias_array (c : Dev nD) :
    (V m c main_v2 : S1x16384.Idx → EReal)
      = shapeCast S1x16384 (m ((c : Thread nD τ).loc main_arg2)) shapeCasts_S16384_S1x16384 := by
  dsimp only [V, V0]
  simp only [hostOps0, hostOps0_1, List.flatten_cons, List.flatten_nil, List.append_nil, List.cons_append, List.nil_append]
  after_results
  rfl

/-- The staged selector at row `r`, column `2048 k + q`: 1 if `x[r, k]` is the word of `q`, else 0. -/
theorem selector_matrix_apply (c : Dev nD) (r : Fin 256) (k : Fin 8) (q : Fin 2048) (j : Fin 16384)
    (hj : j.val = 2048 * k.val + q.val) :
    (V m c main_v1 : S256x16384.Idx → EReal) (ix2 r j)
      = (((IntOp.cmpi .eq (m ((c : Thread nD τ).loc main_arg0) (ix2 r k)) (BitVec.ofNat 32 q.val)).toNat : ℝ) : EReal) := by
  refine (congrFun (selector_array m c) (ix2 r j)).trans ?_
  rw [shapeCast_apply _ shapeCasts_S256x8x2048_S256x16384 (ix2 r j) (ix3 r k q) (by
    rw [Shape.rowMajor_val_three, Shape.rowMajor_val_two]
    show (r.val * 8 + k.val) * 2048 + q.val = r.val * 16384 + j.val
    omega)]
  exact selector_apply _ r k q

/-- The staged bias row at column `p` is the bias at `p`. -/
theorem bias_row_apply (c : Dev nD) (p : Fin 16384) :
    (V m c main_v2 : S1x16384.Idx → EReal) (ix2 (0 : Fin 1) p) = m ((c : Thread nD τ).loc main_arg2) (ix1 p) := by
  refine (congrFun (bias_array m c) (ix2 (0 : Fin 1) p)).trans ?_
  exact shapeCast_apply _ shapeCasts_S16384_S1x16384 (ix2 (0 : Fin 1) p) (ix1 p) (by
    rw [Shape.rowMajor_val_one, Shape.rowMajor_val_two]
    show p.val = 0 * 16384 + p.val
    omega)

end Cert.KernelIdeal.HostSide

end
-- ==== Proof.KernelFinal.lean ====
/-
  The kernel's result, as one function of its arguments.

  For token ids in `[0, 2048)` each step's product collapses: the selector's row has a single one among the step's
  2048 places, at the token id, so the product at `(r, p)` is the weight matrix's entry at row `2048 n + p` and column
  `2048 k + id`. The running sum after the eighth step is therefore the sum of eight such entries, and the output
  block, which adds the bias, is the gather-sum on the block's columns. Only the points with `t % 8 = 7` write the
  output back; the eight of them cover all 16384 columns, the point `8 (j / 2048) + 7` covering column `j`. The host
  then lays the matrix out as `256 × 8 × 2048`.
-/
import proofs.«415443_j43250320670751_1_alg».proof.Proof.KernelFold
import proofs.«415443_j43250320670751_1_alg».proof.Proof.KernelHost
import proofs.«415443_j43250320670751_1_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Steps Cert.KernelIdeal.Fold
  Cert.KernelIdeal.HostSide

variable [Cert.KernelIdeal.Facts]
variable (m : (ℓ : Loc nD τ sig) → Buf (Elt Ideal) ℓ) (ρ : Dev nD → PrngReg)

/-- The three arguments as the program is launched with them. -/
abbrev xArg (c : Dev nD) : IVec S256x8 32 := m ((c : Thread nD τ).loc main_arg0)
abbrev wArg (c : Dev nD) : FVec Ideal S16384x16384 .f32 := m ((c : Thread nD τ).loc main_arg1)
abbrev bArg (c : Dev nD) : FVec Ideal S16384 .f32 := m ((c : Thread nD τ).loc main_arg2)

/-- What the kernel's output array ends holding: the gather-sum of the arguments. -/
abbrev result (c : Dev nD) : Buf (Elt Ideal) ((c : Thread nD τ).loc main_v3) :=
  Cert.Spec.G (xArg m c) (wArg m c) (bArg m c)

/-- ONE STEP COLLAPSES to a single entry of the weight matrix. -/
theorem prod_collapse (c : Dev nD) (hx : ∀ i, (xArg m c i).toNat < 2048) (n : ℕ) (k : Fin 8) (r : Fin 256) (p : Fin 2048) :
    prodAt m c n k.val r p = wArg m c (ix2 (at16 n p) (Cert.Spec.col (xArg m c) r k)) := by
  unfold prodAt
  have e : ∀ q : Fin 2048, selArr m c (ix2 r (at16 k.val q)) * wArr m c (ix2 (at16 n p) (at16 k.val q))
      = (((IntOp.cmpi .eq (xArg m c (ix2 r k)) (BitVec.ofNat 32 q.val)).toNat : ℝ) : EReal)
        * (fun q' : Fin 2048 => wArg m c (ix2 (at16 n p) (at16 k.val q'))) q := by
    intro q
    rw [show selArr m c (ix2 r (at16 k.val q)) = _ from selector_matrix_apply m c r k q (at16 k.val q) (at16_val _ k.isLt q),
      show wArr m c = wArg m c from V_main_arg1 m c]
  rw [Finset.sum_congr rfl (fun q _ => e q), Cert.Spec.onehot_sum _ (hx (ix2 r k))]
  show wArg m c (ix2 (at16 n p) (at16 k.val ⟨(xArg m c (ix2 r k)).toNat, _⟩)) = _
  refine congrArg (fun j => wArg m c (ix2 (at16 n p) j)) (Fin.ext ?_)
  rw [at16_val _ k.isLt, Cert.Spec.col_val _ _ _ (hx _)]

/-- THE OUTPUT BLOCK at a last step is the gather-sum on the block's columns. -/
theorem outBlk_eq (c : Dev nD) (hx : ∀ i, (xArg m c i).toNat < 2048) (t : Fin cfg0.N) (h7 : t.val % 8 = 7)
    (r : Fin 256) (p : Fin 2048) :
    outBlk m c t (ix2 r p) = result m c (ix2 r (at16 (t.val / 8) p)) := by
  have hN : cfg0.N = 64 := N_0
  have ht := t.isLt
  rw [outBlk_last m c t h7, PayIdx.out_apply, acc_eq m c t.val t.isLt r p, h7,
    biasBlk_apply m c t p (at16 (t.val / 8) p) (at16_val _ (by omega) p),
    show biasArr m c (ix2 (0 : Fin 1) (at16 (t.val / 8) p)) = _ from bias_row_apply m c _, Finset.sum_range]
  show _ = (∑ j : Fin 8, wArg m c (ix2 (at16 (t.val / 8) p) (Cert.Spec.col (xArg m c) r j))) + bArg m c (ix1 (at16 (t.val / 8) p))
  exact congrArg (· + _) (Finset.sum_congr rfl fun k _ => prod_collapse m c hx (t.val / 8) k r p)

/-- Which block the output window is on at point `t`, decided over the 64 points. -/
theorem out_index : ∀ t : Fin cfg0.N, win0_3.index t 0 = 0 ∧ win0_3.index t 1 = t.val / 8 :=
  (by decide +kernel : ∀ t : Fin grid0.N, win0_3.index t 0 = 0 ∧ win0_3.index t 1 = t.val / 8)

/-- WHAT A LAST STEP WRITES BACK is its block of the gather-sum. -/
theorem flushed_eq (c : Dev nD) (hx : ∀ i, (xArg m c i).toNat < 2048) (t : Fin cfg0.N) (hf : (cfg0.win 3).flush t = true) :
    (dats m 0 c).flushed 3 t = ((cfg0.win 3).blk t).view.read (Elt Ideal) (result m c) := by
  have h7 : t.val % 8 = 7 := (flush0_3 t).mp hf
  have hi := out_index t
  have hN : cfg0.N = 64 := N_0
  have ht := t.isLt
  show (cfg0.win 3).cut (grid0.coords t) ((dats m 0 c).after 3 t) = _
  rw [after0_3]
  have key : ∀ y : S256x2048.Idx, outBlk m c t y = result m c (((cfg0.win 3).blk t).view.emb y) := by
    intro y
    obtain ⟨r, p, rfl⟩ : ∃ (r : Fin 256) (p : Fin 2048), y = ix2 r p := ⟨y 0, y 1, eq_ix2 y⟩
    rw [outBlk_eq m c hx t h7 r p]
    refine congrArg (result m c) (funext fun a => Fin.ext ?_)
    match a with
    | ⟨0, _⟩ => show r.val = win0_3.index t 0 * 256 + 1 * r.val; rw [hi.1]; omega
    | ⟨1, _⟩ => show (at16 (t.val / 8) p).val = win0_3.index t 1 * 2048 + 1 * p.val; rw [hi.2, at16_val _ (by omega)]; omega
  funext j
  exact key j

/-- An index of the output array is in point `t`'s block when each coordinate is in the block's range. -/
theorem mem_blk (t : Fin cfg0.N) (i : S256x16384.Idx) :
    i ∈ ((cfg0.win 3).blk t).view.set ↔ ∀ a : Fin 2, win0_3.index t a * S256x2048.size a ≤ (i a).val
      ∧ (i a).val < win0_3.index t a * S256x2048.size a + S256x2048.size a := by
  show i ∈ ((View.whole main_v3).slice (win0_3.rect t)).set ↔ _
  rw [View.set_slice_whole, Rect.mem_set_unit]
  exact Iff.rfl

/-- EVERY COLUMN IS WRITTEN: column `j` lies in the block of the last step of column block `j / 2048`. -/
theorem cover (i : S256x16384.Idx) :
    ∃ t : Fin cfg0.N, (cfg0.win 3).flush t = true ∧ i ∈ ((cfg0.win 3).blk t).view.set := by
  have hN : cfg0.N = 64 := N_0
  have h0 : (i 0).val < 256 := (i 0).isLt
  have h1 : (i 1).val < 16384 := (i 1).isLt
  have hlt : 8 * ((i 1).val / 2048) + 7 < cfg0.N := by omega
  have hi := out_index ⟨8 * ((i 1).val / 2048) + 7, hlt⟩
  refine ⟨⟨8 * ((i 1).val / 2048) + 7, hlt⟩, (flush0_3 _).mpr (by show (8 * ((i 1).val / 2048) + 7) % 8 = 7; omega), ?_⟩
  rw [mem_blk]
  intro a
  match a with
  | ⟨0, _⟩ =>
    show win0_3.index ⟨8 * ((i 1).val / 2048) + 7, hlt⟩ 0 * 256 ≤ (i 0).val
      ∧ (i 0).val < win0_3.index ⟨8 * ((i 1).val / 2048) + 7, hlt⟩ 0 * 256 + 256
    rw [hi.1]; omega
  | ⟨1, _⟩ =>
    show win0_3.index ⟨8 * ((i 1).val / 2048) + 7, hlt⟩ 1 * 2048 ≤ (i 1).val
      ∧ (i 1).val < win0_3.index ⟨8 * ((i 1).val / 2048) + 7, hlt⟩ 1 * 2048 + 2048
    rw [hi.2]
    show (8 * ((i 1).val / 2048) + 7) / 8 * 2048 ≤ (i 1).val ∧ (i 1).val < (8 * ((i 1).val / 2048) + 7) / 8 * 2048 + 2048
    omega

/-- THE OUTPUT ARRAY after the run is the gather-sum. -/
theorem final (c : Dev nD) (hx : ∀ i, (xArg m c i).toNat < 2048) : (dats m 0 c).arrAt 3 cfg0.N = result m c :=
  (dats m 0 c).arrAt_eq_of_cover 3 (result m c) (fun t hf => flushed_eq m c hx t hf) cover

/-- The program's result: the host's last re-layout of the output array. -/
theorem tail_eq (c : Dev nD) (hx : ∀ i, (xArg m c i).toNat < 2048) :
    Pipeline.afterTail₀ cfgs (dats m) 0 (V0 m) [hostOps1] c main_v4
      = shapeCast S256x8x2048 (result m c) shapeCasts_S256x16384_S256x8x2048 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v3)
      = result m c := (Pipeline.withArrays_arr spec0 launch0.win.arr_inj c _ _ 3).trans (final m c hx)
  rw [e]
  rfl

/-- THE RUN, READ: every weakly fair execution ends with the result at the re-laid gather-sum of the arguments, and
    the arguments as they were. -/
theorem run (hx : ∀ c i, (xArg m c i).toNat < 2048) :
    θ_run defs (onTc (τ := τ) (main (F := Ideal))) ⟨m, fun _ => 0, ρ⟩ fun r => ∀ c : Dev nD,
      r.2.mem ((c.tc : Thread nD τ).loc main_v4) = shapeCast S256x8x2048 (result m c) shapeCasts_S256x16384_S256x8x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c (hx c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Final

end
-- ==== Proof.lean ====
/-
  A one-hot matrix product against a gather-sum.

  The kernel turns each row of eight token ids into a row of 16384 zeros and ones — position `j` owns the columns
  `2048 j, …, 2048 j + 2047`, and carries a single one at column `2048 j + id` when the id lies in `[0, 2048)` —,
  multiplies that matrix by the transposed weight matrix in 8 × 8 blocks, accumulating along the contracted axis in a
  scratch block, and adds the bias at the last step. The reference adds `2048 j` to each id, gathers those eight
  columns of the weight matrix and sums them, then adds the bias. Both end by laying the `256 × 16384` result out as
  `256 × 8 × 2048`.

  Over the extended reals the two agree whenever every id lies in `[0, 2048)`, which the precondition states: the
  row of zeros and ones against any row of numbers sums to that row's entry at the one (`0 · a = 0` and `1 · a = a`
  for every extended real, so no finiteness is used), and the order in which the eight entries and the bias are added
  does not matter. For such ids the reference's index `id + 2048 j` neither wraps, nor is negative, nor leaves
  `[0, 16384)`, so its gather reads exactly that column.

  The three frames are the generated runs. The idealization rewrote nothing, so `preserves` is trivial. The modules
  under Proof/ carry the value: Spec (the gather-sum and the one-hot law), PreRange (the ids' range out of the
  precondition), RefSide (the reference is the gather-sum), and on the kernel's side KernelPieces and KernelSteps (what
  one run of the body leaves), KernelPayIdx (the body's values at an index), KernelHost and KernelBlocks (the arrays
  the host prepares and the blocks cut from them), KernelFold (the running sum), KernelFinal (the result array, the
  last re-layout, the run).
-/
import proofs.«415443_j43250320670751_1_alg».proof.Defs
import proofs.«415443_j43250320670751_1_alg».proof.Proof.Gen.Kernel
import proofs.«415443_j43250320670751_1_alg».proof.Proof.Gen.Kernel.Skeleton
import proofs.«415443_j43250320670751_1_alg».proof.Proof.Gen.Kernel.Launch
import proofs.«415443_j43250320670751_1_alg».proof.Proof.Gen.Kernel.Points
import proofs.«415443_j43250320670751_1_alg».proof.Proof.Gen.Kernel.Frame
import proofs.«415443_j43250320670751_1_alg».proof.Proof.Gen.KernelIdeal
import proofs.«415443_j43250320670751_1_alg».proof.Proof.Gen.KernelIdeal.Skeleton
import proofs.«415443_j43250320670751_1_alg».proof.Proof.Gen.KernelIdeal.Launch
import proofs.«415443_j43250320670751_1_alg».proof.Proof.Gen.KernelIdeal.Points
import proofs.«415443_j43250320670751_1_alg».proof.Proof.Gen.KernelIdeal.Frame
import proofs.«415443_j43250320670751_1_alg».proof.Proof.Gen.ReferenceIdeal
import proofs.«415443_j43250320670751_1_alg».proof.Proof.Gen.ReferenceIdeal.Run
import proofs.«415443_j43250320670751_1_alg».proof.Proof.Gen.ReferenceIdeal.Read
import proofs.«415443_j43250320670751_1_alg».proof.Proof.Gen.Pre_finite_inputs
import proofs.«415443_j43250320670751_1_alg».proof.Proof.PreRange
import proofs.«415443_j43250320670751_1_alg».proof.Proof.RefSide
import proofs.«415443_j43250320670751_1_alg».proof.Proof.KernelFinal
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- Under the precondition both programs end at the gather-sum of the same arguments, laid out as `256 × 8 × 2048`. -/
theorem algebraic : Cert.algebraic_KernelIdeal_ReferenceIdeal := by
  intro m ρ m' ρ' hpre hagree
  have hx : ∀ c i, (Cert.KernelIdeal.Final.xArg m c i).toNat < 2048 :=
    fun c => Cert.PreRange.x_range (F := Ideal) _ _ _ (hpre c)
  refine ⟨_, Cert.KernelIdeal.Final.run m ρ hx, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2]
  show shapeCast _ (Cert.ReferenceIdeal.Read.val_main_v17 (F := Ideal) _ _ _) _ = _
  rw [Cert.RefSide.ref_eq _ _ _ (hx c)]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
